-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x64x512 : Shape := ⟨3, ![4, 64, 512]⟩
abbrev S1024x1024 : Shape := ⟨2, ![1024, 1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x64x512 : S_.BroadcastsInDim S4x64x512 (![] : Fin 0 → Fin S4x64x512.rank)
  reducesTo_S4x64x512_S_d0_1_2 : S4x64x512.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x256x512 .f32) (main_arg1 : FVec F S4x64x512 .f32) (main_arg2 : FVec F S1024x1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x64x512 .f32 := Host.absf main_arg1
  let main_cst_0 : FVec F S_ .f32 := constant S_ .f32 0x7F800000#32
  let main_v5 : FVec F S4x64x512 .f32 := broadcastInDim S4x64x512 ![] bcast_S_S4x64x512 main_cst_0
  let main_v6 : IVec S4x64x512 1 := cmpf .olt main_v4 main_v5
  let main_c_1 : IVec S_ 1 := constantI S_ 1 1#1
  let main_v7 : IVec S_ 1 := (fun x v => Host.reduce IntOp.andi x v reducesTo_S4x64x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x256x512 : Shape := ⟨3, ![4, 256, 512]⟩
abbrev S4x64x512 : Shape := ⟨3, ![4, 64, 512]⟩
abbrev S1024x1024 : Shape := ⟨2, ![1024, 1024]⟩
abbrev S1024x512 : Shape := ⟨2, ![1024, 512]⟩
abbrev S512x1024 : Shape := ⟨2, ![512, 1024]⟩
abbrev S256x512 : Shape := ⟨2, ![256, 512]⟩
abbrev S256x1024 : Shape := ⟨2, ![256, 1024]⟩
abbrev S4x256x1024 : Shape := ⟨3, ![4, 256, 1024]⟩
abbrev S4x64x1024 : Shape := ⟨3, ![4, 64, 1024]⟩
abbrev S4x256x64x1024 : Shape := ⟨4, ![4, 256, 64, 1024]⟩
abbrev S1x32x1024 : Shape := ⟨3, ![1, 32, 1024]⟩
abbrev S1x64x1024 : Shape := ⟨3, ![1, 64, 1024]⟩
abbrev S1x32x64x1024 : Shape := ⟨4, ![1, 32, 64, 1024]⟩
abbrev S32x1024 : Shape := ⟨2, ![32, 1024]⟩
abbrev S64x1024 : Shape := ⟨2, ![64, 1024]⟩
abbrev S32x1x1024 : Shape := ⟨3, ![32, 1, 1024]⟩
abbrev S32x64x1024 : Shape := ⟨3, ![32, 64, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S1024x1024, .f32⟩
  | .hbm, ⟨3, _⟩ => ⟨S1024x512, .f32⟩
  | .hbm, ⟨4, _⟩ => ⟨S1024x512, .f32⟩
  | .hbm, ⟨5, _⟩ => ⟨S512x1024, .f32⟩
  | .hbm, ⟨6, _⟩ => ⟨S512x1024, .f32⟩
  | .hbm, ⟨7, _⟩ => ⟨S1024x512, .f32⟩
  | .hbm, ⟨8, _⟩ => ⟨S256x512, .f32⟩
  | .hbm, ⟨9, _⟩ => ⟨S1024x1024, .f32⟩
  | .hbm, ⟨10, _⟩ => ⟨S256x1024, .f32⟩
  | .hbm, ⟨11, _⟩ => ⟨S4x256x1024, .f32⟩
  | .hbm, ⟨12, _⟩ => ⟨S4x64x1024, .f32⟩
  | .hbm, ⟨13, _⟩ => ⟨S4x256x64x1024, .f32⟩
  | .local _ .vmem, ⟨0, _⟩ => ⟨S256x512, .f32⟩
  | .local _ .vmem, ⟨1, _⟩ => ⟨S256x512, .f32⟩
  | .local _ .vmem, ⟨2, _⟩ => ⟨S512x1024, .f32⟩
  | .local _ .vmem, ⟨3, _⟩ => ⟨S256x1024, .f32⟩
  | .local _ .vmem, ⟨4, _⟩ => ⟨S256x1024, .f32⟩
  | .local _ .vmem, ⟨5, _⟩ => ⟨S256x512, .f32⟩
  | .local _ .vmem, ⟨6, _⟩ => ⟨S512x1024, .f32⟩
  | .local _ .vmem, ⟨7, _⟩ => ⟨S256x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x32x64x1024, .f32⟩
  | .local _ .vmem, ⟨13, _⟩ => ⟨S1x32x64x1024, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S512x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x32x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x32x64x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S1024x1024_S1024x512_0_0 : S1024x1024.Slices ![0, 0] S1024x512
  slices_S1024x1024_S1024x512_0_512 : S1024x1024.Slices ![0, 512] S1024x512
  transposes_S1024x512_S512x1024_1_0 : S1024x512.Transposes [1, 0] S512x1024
  shapeCasts_S4x256x512_S1024x512 : S4x256x512.ShapeCasts S1024x512
  shapeCasts_S4x64x512_S256x512 : S4x64x512.ShapeCasts S256x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S256x1024_S256x1024_0_0 : ∀ a, (![0, 0] : Fin 2 → Nat) a + S256x1024.size a ≤ S256x1024.size a
  h_S256x1024 : 0 < S256x1024.numel
  shapeCasts_S1024x1024_S4x256x1024 : S1024x1024.ShapeCasts S4x256x1024
  shapeCasts_S256x1024_S4x64x1024 : S256x1024.ShapeCasts S4x64x1024
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S32x1024_S32x1x1024 : S32x1024.ShapeCasts S32x1x1024
  shapeCasts_S64x1024_S1x64x1024 : S64x1024.ShapeCasts S1x64x1024
  broadcasts_S32x1x1024_S32x64x1024 : S32x1x1024.Broadcasts S32x64x1024
  broadcasts_S1x64x1024_S32x64x1024 : S1x64x1024.Broadcasts S32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  shapeCasts_S1x32x64x1024_S32x64x1024 : S1x32x64x1024.ShapeCasts S32x64x1024
  shapeCasts_S32x64x1024_S1x32x64x1024 : S32x64x1024.ShapeCasts S1x32x64x1024
  dot_S256x512_S512x1024_S256x1024_1_0_0_1_n_n_wf : DotDims.WF S256x512 S512x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .f32 = 32 ∨ (Rect.block (s := S1024x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S1024x1024.size a
  hwx0_2 : ∀ i : grid0.Coords, EltTy.bits .f32 = 32 ∨ (Rect.block (s := S1024x1024) S256x1024.size (cc0_transform_2 i) (hinb0_2 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S256x512.size a
  hwx1_0 : ∀ i : grid1.Coords, EltTy.bits .f32 = 32 ∨ (Rect.block (s := S256x512) S256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S512x1024.size a
  hwx1_1 : ∀ i : grid1.Coords, EltTy.bits .f32 = 32 ∨ (Rect.block (s := S512x1024) S512x1024.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S256x1024.size a
  hwx1_2 : ∀ i : grid1.Coords, EltTy.bits .f32 = 32 ∨ (Rect.block (s := S256x1024) S256x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x32x1024.size a ≤ S4x256x1024.size a
  hwx2_0 : ∀ i : grid2.Coords, EltTy.bits .f32 = 32 ∨ (Rect.block (s := S4x256x1024) S1x32x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x1024.size a ≤ S4x64x1024.size a
  hwx2_1 : ∀ i : grid2.Coords, EltTy.bits .f32 = 32 ∨ (Rect.block (s := S4x64x1024) S1x64x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x32x64x1024.size a ≤ S4x256x64x1024.size a
  hwx2_2 : ∀ i : grid2.Coords, EltTy.bits .f32 = 32 ∨ (Rect.block (s := S4x256x64x1024) S1x32x64x1024.size (cc2_transform_2 i) (hinb2_2 i)).WholeWords (EltTy.packing .f32)

variable [Facts₀]

def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_v4) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S256x512.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S256x1024.size cc1_transform_2 reads1_2 true false 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v8) S1x32x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1x64x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x32x64x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x256x512 : Shape := ⟨3, ![4, 256, 512]⟩
abbrev S4x64x512 : Shape := ⟨3, ![4, 64, 512]⟩
abbrev S1024x1024 : Shape := ⟨2, ![1024, 1024]⟩
abbrev S1024x512 : Shape := ⟨2, ![1024, 512]⟩
abbrev S4x256x1024 : Shape := ⟨3, ![4, 256, 1024]⟩
abbrev S4x64x1024 : Shape := ⟨3, ![4, 64, 1024]⟩
abbrev S4x256x1x1024 : Shape := ⟨4, ![4, 256, 1, 1024]⟩
abbrev S4x1x64x1024 : Shape := ⟨4, ![4, 1, 64, 1024]⟩
abbrev S4x256x64x1024 : Shape := ⟨4, ![4, 256, 64, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S1024x1024, .f32⟩
  | .hbm, ⟨3, _⟩ => ⟨S1024x512, .f32⟩
  | .hbm, ⟨4, _⟩ => ⟨S1024x512, .f32⟩
  | .hbm, ⟨5, _⟩ => ⟨S4x256x1024, .f32⟩
  | .hbm, ⟨6, _⟩ => ⟨S4x64x1024, .f32⟩
  | .hbm, ⟨7, _⟩ => ⟨S4x256x1x1024, .f32⟩
  | .hbm, ⟨8, _⟩ => ⟨S4x1x64x1024, .f32⟩
  | .hbm, ⟨9, _⟩ => ⟨S4x256x64x1024, .f32⟩
  | .hbm, ⟨10, _⟩ => ⟨S4x256x64x1024, .f32⟩
  | .hbm, ⟨11, _⟩ => ⟨S4x256x64x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  slices_S1024x1024_S1024x512_0_0 : S1024x1024.Slices ![0, 0] S1024x512
  slices_S1024x1024_S1024x512_0_512 : S1024x1024.Slices ![0, 512] S1024x512
  bcast_S4x256x1024_S4x256x1x1024_0_1_3 : S4x256x1024.BroadcastsInDim S4x256x1x1024 (![0, 1, 3] : Fin 3 → Fin S4x256x1x1024.rank)
  bcast_S4x64x1024_S4x1x64x1024_0_2_3 : S4x64x1024.BroadcastsInDim S4x1x64x1024 (![0, 2, 3] : Fin 3 → Fin S4x1x64x1024.rank)
  bcast_S4x256x1x1024_S4x256x64x1024_0_1_2_3 : S4x256x1x1024.BroadcastsInDim S4x256x64x1024 (![0, 1, 2, 3] : Fin 4 → Fin S4x256x64x1024.rank)
  bcast_S4x1x64x1024_S4x256x64x1024_0_1_2_3 : S4x1x64x1024.BroadcastsInDim S4x256x64x1024 (![0, 1, 2, 3] : Fin 4 → Fin S4x256x64x1024.rank)
  dot_S4x256x512_S1024x512_S4x256x1024_2_1_01_0_n_n_wf : DotDims.WF S4x256x512 S1024x512 S4x256x1024 [2] [1] [0, 1] [0] [] []
  dot_S4x64x512_S1024x512_S4x64x1024_2_1_01_0_n_n_wf : DotDims.WF S4x64x512 S1024x512 S4x64x1024 [2] [1] [0, 1] [0] [] []

variable [Facts₀]

def dot_S4x256x512_S1024x512_S4x256x1024_2_1_01_0_n_n : DotDims S4x256x512 S1024x512 S4x256x1024 where
  lhsContracting := [2]
  rhsContracting := [1]
  lhsNonContracting := [0, 1]
  rhsNonContracting := [0]
  lhsBatch := []
  rhsBatch := []
  wf := dot_S4x256x512_S1024x512_S4x256x1024_2_1_01_0_n_n_wf
def dot_S4x64x512_S1024x512_S4x64x1024_2_1_01_0_n_n : DotDims S4x64x512 S1024x512 S4x64x1024 where
  lhsContracting := [2]
  rhsContracting := [1]
  lhsNonContracting := [0, 1]
  rhsNonContracting := [0]
  lhsBatch := []
  rhsBatch := []
  wf := dot_S4x64x512_S1024x512_S4x64x1024_2_1_01_0_n_n_wf

class Facts : Prop extends Facts₀ where

variable [Facts]
-- ==== Proof.Spec.lean ====
/-
  The joint network as one function of its three argument arrays.

  For encoder states `e[b, t, k]`, decoder states `d[b, u, k]` and a weight `w[c, k']` whose columns are the
  encoder's 512 input features followed by the decoder's 512, the joint output at `(b, t, u, c)` is

      (sum over k of e[b, t, k] * w[c, k])  +  (sum over k of d[b, u, k] * w[c, 512 + k])

  on the extended reals: the linear layer applied to the concatenation of the two states, split by the weight's
  column halves. Both programs are shown to compute exactly this function; no algebraic law beyond reading each
  program's layout operations at an index is needed, so the finiteness of the inputs is never used.
-/
import Idealize.ShloMosaic.Lib.ValueIdx
import Idealize.ShloMosaic.PureOps.Ideal

noncomputable section

namespace Cert.Joint

open Idealize.ShloMosaic Idealize.ShloMosaic.ValueIdx

/-- Column `k` of the weight's encoder half. -/
def colLo (k : Fin 512) : Fin 1024 := ⟨k.val, by omega⟩
/-- Column `k` of the weight's decoder half. -/
def colHi (k : Fin 512) : Fin 1024 := ⟨512 + k.val, by omega⟩
/-- Row of the flattened encoder states `[4 * 256, 512]` holding batch `b`, time `t`. -/
def encRow (b : Fin 4) (t : Fin 256) : Fin 1024 := ⟨b.val * 256 + t.val, by omega⟩
/-- Row of the flattened decoder states `[4 * 64, 512]` holding batch `b`, label position `u`. -/
def decRow (b : Fin 4) (u : Fin 64) : Fin 256 := ⟨b.val * 64 + u.val, by omega⟩

theorem colLo_val (k : Fin 512) : (colLo k).val = k.val := rfl
theorem colHi_val (k : Fin 512) : (colHi k).val = 512 + k.val := rfl
theorem encRow_val (b : Fin 4) (t : Fin 256) : (encRow b t).val = b.val * 256 + t.val := rfl
theorem decRow_val (b : Fin 4) (u : Fin 64) : (decRow b u).val = b.val * 64 + u.val := rfl

/-- The encoder's projection: row `(b, t)` of the encoder states against row `c` of the weight's first half. -/
def encProj (e : (⟨3, ![4, 256, 512]⟩ : Shape).Idx → EReal) (w : (⟨2, ![1024, 1024]⟩ : Shape).Idx → EReal)
    (b : Fin 4) (t : Fin 256) (c : Fin 1024) : EReal :=
  ∑ k : Fin 512, e (ix3 b t k) * w (ix2 c (colLo k))

/-- The decoder's projection: row `(b, u)` of the decoder states against row `c` of the weight's second half. -/
def decProj (d : (⟨3, ![4, 64, 512]⟩ : Shape).Idx → EReal) (w : (⟨2, ![1024, 1024]⟩ : Shape).Idx → EReal)
    (b : Fin 4) (u : Fin 64) (c : Fin 1024) : EReal :=
  ∑ k : Fin 512, d (ix3 b u k) * w (ix2 c (colHi k))

/-- The joint output: the two projections added, the encoder's constant along `u`, the decoder's along `t`. -/
def joint (e : (⟨3, ![4, 256, 512]⟩ : Shape).Idx → EReal) (d : (⟨3, ![4, 64, 512]⟩ : Shape).Idx → EReal)
    (w : (⟨2, ![1024, 1024]⟩ : Shape).Idx → EReal) : (⟨4, ![4, 256, 64, 1024]⟩ : Shape).Idx → EReal :=
  fun i => encProj e w (i 0) (i 1) (i 3) + decProj d w (i 0) (i 2) (i 3)

theorem joint_ix4 (e : (⟨3, ![4, 256, 512]⟩ : Shape).Idx → EReal) (d : (⟨3, ![4, 64, 512]⟩ : Shape).Idx → EReal)
    (w : (⟨2, ![1024, 1024]⟩ : Shape).Idx → EReal) (b : Fin 4) (t : Fin 256) (u : Fin 64) (c : Fin 1024) :
    joint e d w (ix4 b t u c) = encProj e w b t c + decProj d w b u c := rfl

end Cert.Joint

end
-- ==== Proof.Arrays.lean ====
/-
  The arrays the three kernel regions read and write, each named at its literal shape and element type, as functions
  of the buffer contents `V` a region is entered with: the flattened encoder and decoder states, the two transposed
  weight halves, the two projections (flat, as the matrix products leave them, and re-shaped to [batch, row, class]),
  and the joint output. Arithmetic on a window's element type is only found by Lean at these literal types.
-/
import proofs.«171997_j69810398429358_1_alg».proof.Proof.Gen.KernelIdeal.Frame
import proofs.«171997_j69810398429358_1_alg».proof.Proof.Spec
import Idealize.ShloMosaic.Lib.ValueIdx

set_option maxRecDepth 16384

noncomputable section

namespace Cert.KernelIdeal.JointValue

open Idealize.ShloMosaic Idealize.ShloMosaic.TcCoe Idealize.ShloMosaic.ValueIdx Idealize.SL.Sem
open Cert.KernelIdeal Cert.KernelIdeal.Gen Cert.Joint

variable (V : (c : Dev nD) → (b : Ref sig .tc) → Buf (Elt Ideal) ((c : Thread nD τ).loc b))

/-- Region 0's operands: the encoder states flattened to [4 * 256, 512] and the weight's first half transposed. -/
abbrev encFlat (c : Dev nD) : FVec Ideal S1024x512 .f32 := V c main_v4
abbrev wEncT (c : Dev nD) : FVec Ideal S512x1024 .f32 := V c main_v2
/-- What region 0's write-backs leave in its output array. -/
abbrev encOut (c : Dev nD) : FVec Ideal S1024x1024 .f32 := (dat0 V c).arrAt 2 cfg0.N
/-- Region 1's operands: the decoder states flattened to [4 * 64, 512] and the weight's second half transposed. -/
abbrev decFlat (c : Dev nD) : FVec Ideal S256x512 .f32 := V c main_v5
abbrev wDecT (c : Dev nD) : FVec Ideal S512x1024 .f32 := V c main_v3
/-- What region 1's write-back leaves in its output array. -/
abbrev decOut (c : Dev nD) : FVec Ideal S256x1024 .f32 := (dat1 V c).arrAt 2 cfg1.N
/-- Region 2's operands: the two projections at [4, 256, 1024] and [4, 64, 1024]. -/
abbrev encP (c : Dev nD) : FVec Ideal S4x256x1024 .f32 := V c main_v8
abbrev decP (c : Dev nD) : FVec Ideal S4x64x1024 .f32 := V c main_v9
/-- What region 2's write-backs leave in the result array. -/
abbrev sumOut (c : Dev nD) : FVec Ideal S4x256x64x1024 .f32 := (dat2 V c).arrAt 2 cfg2.N

end Cert.KernelIdeal.JointValue

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Region0.lean ====
/-
  The first matrix-product region, read as a value: its output array [1024, 1024] ends holding, at (p, j), the sum
  over the 512 features a of the flattened encoder states at (p, a) times the transposed weight half at (a, j). The
  body's stored block at an entry is that sum over its two loaded blocks (a product into a zero accumulator, the
  narrowing of the operands being the identity on extended reals); each of the four grid points writes back the block
  of 256 rows it owns of that one function of the two operand arrays, the right operand's single block being the whole
  array; the four row blocks tile the output.
-/
import proofs.«171997_j69810398429358_1_alg».proof.Proof.Arrays
import proofs.«171997_j69810398429358_1_alg».proof.Proof.LibDot2
import Idealize.ShloMosaic.Lib.Pipeline.Value
import Idealize.ShloMosaic.Lib.ValueIdx

set_option maxRecDepth 16384

noncomputable section

namespace Cert.KernelIdeal.JointValue

open Idealize.ShloMosaic Idealize.ShloMosaic.TcCoe Idealize.ShloMosaic.ValueIdx Idealize.SL.Sem
open Cert.KernelIdeal Cert.KernelIdeal.Gen Cert.Joint

variable (V : (c : Dev nD) → (b : Ref sig .tc) → Buf (Elt Ideal) ((c : Thread nD τ).loc b))

/-! ## The product's dimension numbers: which coordinate of each operand is the output's, which is summed -/

/-- The left operand's row is the output's row. -/
theorem enc_dot_lhs_0 (i : S256x1024.Idx) (q : dot_S256x512_S512x1024_S256x1024_1_0_0_1_n_n.contr.Idx) :
    (dot_S256x512_S512x1024_S256x1024_1_0_0_1_n_n.lhsIdx i q 0).val = (i 0).val := by
  unfold DotDims.lhsIdx
  rw [dif_neg (show ¬(0 : Fin S256x512.rank) ∈ dot_S256x512_S512x1024_S256x1024_1_0_0_1_n_n.lhsBatch by decide), dif_pos (show (0 : Fin S256x512.rank) ∈ dot_S256x512_S512x1024_S256x1024_1_0_0_1_n_n.lhsNonContracting by decide)]
  rfl
/-- The left operand's column is the summed index. -/
theorem enc_dot_lhs_1 (i : S256x1024.Idx) (q : dot_S256x512_S512x1024_S256x1024_1_0_0_1_n_n.contr.Idx) :
    (dot_S256x512_S512x1024_S256x1024_1_0_0_1_n_n.lhsIdx i q 1).val = (q ⟨0, by decide⟩).val :=
  dot_S256x512_S512x1024_S256x1024_1_0_0_1_n_n.lhsIdx_val_of_single rfl i q
/-- The right operand's row is the summed index. -/
theorem enc_dot_rhs_0 (i : S256x1024.Idx) (q : dot_S256x512_S512x1024_S256x1024_1_0_0_1_n_n.contr.Idx) :
    (dot_S256x512_S512x1024_S256x1024_1_0_0_1_n_n.rhsIdx i q 0).val = (q ⟨0, by decide⟩).val :=
  dot_S256x512_S512x1024_S256x1024_1_0_0_1_n_n.rhsIdx_val_of_single rfl i q
/-- The right operand's column is the output's column. -/
theorem enc_dot_rhs_1 (i : S256x1024.Idx) (q : dot_S256x512_S512x1024_S256x1024_1_0_0_1_n_n.contr.Idx) :
    (dot_S256x512_S512x1024_S256x1024_1_0_0_1_n_n.rhsIdx i q 1).val = (i 1).val := by
  unfold DotDims.rhsIdx
  rw [dif_neg (show ¬(1 : Fin S512x1024.rank) ∈ dot_S256x512_S512x1024_S256x1024_1_0_0_1_n_n.rhsBatch by decide), dif_pos (show (1 : Fin S512x1024.rank) ∈ dot_S256x512_S512x1024_S256x1024_1_0_0_1_n_n.rhsNonContracting by decide)]
  rfl

/-! ## One block: the body's stored value at an entry -/

/-- The stored block at row `q`, column `j` is the sum over `a` of the left block's `(q, a)` times the right
    block's `(a, j)`: the casts are of a shape to itself, the narrowing is the identity on extended reals, and the
    accumulator is zero. -/
theorem enc_pay_apply (x0 : Vec Ideal S256x512 .f32) (x1 : Vec Ideal S512x1024 .f32) (q : Fin 256) (j : Fin 1024) :
    k0_pay1 x0 x1 (ix2 q j) = ∑ a : Fin 512, x0 (ix2 q a) * x1 (ix2 a j) := by
  unfold k0_pay1
  refine (Cert.Lib.Dot2.matmul_zero_ix2 dot_S256x512_S512x1024_S256x1024_1_0_0_1_n_n none rfl rfl
    enc_dot_lhs_0 enc_dot_lhs_1 enc_dot_rhs_0 enc_dot_rhs_1 _ _ q j).trans ?_
  refine Finset.sum_congr rfl fun a _ => ?_
  rw [truncf_apply, truncf_apply, shapeCast_self, shapeCast_self]

/-! ## The whole product, and what each grid point writes of it -/

theorem enc_hz : (![0, 0] : Fin 2 → Nat) = fun _ => 0 := funext fun a => by fin_cases a <;> rfl

/-- The product of the two operand arrays as the region finds them: entry `(p, j)` is the sum over `a` of the
    left array's `(p, a)` times the right array's `(a, j)`. -/
abbrev encG (c : Dev nD) : FVec Ideal S1024x1024 .f32 :=
  fun i => ∑ a : Fin 512, encFlat V c (ix2 (i 0) a) * wEncT V c (ix2 a (i 1))

/-- The printed index maps, decided over the grid's four points: the left operand's row block is the output's, its
    column block is the only one; the right operand has one block; the output has one column block and four row
    blocks. -/
theorem enc_idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 3 :=
  (by decide +kernel : ∀ t : Fin grid0.N, _)

/-- Every row block of the output is some point's. -/
theorem enc_idx_onto : ∀ q0 : Fin 4, ∃ t : Fin cfg0.N, win0_2.index t = ![q0.val, 0] :=
  (by decide +kernel : ∀ q0 : Fin 4, ∃ t : Fin grid0.N, win0_2.index t = ![q0.val, 0])

/-- The left operand's block at point `t`, at `(q, a)`, is the left array at the row `256 ×` the block's row index
    `+ q` and the column `512 ×` the block's column index `+ a`. -/
theorem enc_lhs_read (c : Dev nD) (t : Fin cfg0.N) (q : Fin 256) (a : Fin 512) (k : S1024x512.Idx)
    (hk0 : (k 0).val = win0_0.index t (0 : Fin 2) * 256 + q.val) (hk1 : (k 1).val = win0_0.index t (1 : Fin 2) * 512 + a.val) :
    (iblk0 V c 0 t : Vec Ideal S256x512 .f32) (ix2 q a) = encFlat V c k := by
  unfold iblk0
  rw [View.read_apply]
  show V c main_v4 _ = V c main_v4 _
  congr 1
  funext d
  apply Fin.ext
  match d with
  | ⟨0, _⟩ => show win0_0.index t (0 : Fin 2) * 256 + 1 * q.val = (k 0).val; omega
  | ⟨1, _⟩ => show win0_0.index t (1 : Fin 2) * 512 + 1 * a.val = (k 1).val; omega

/-- The right operand's block at point `t`, at `(a, j)`, is the right array at the row `512 ×` the block's row
    index `+ a` and the column `1024 ×` the block's column index `+ j`. -/
theorem enc_rhs_read (c : Dev nD) (t : Fin cfg0.N) (a : Fin 512) (j : Fin 1024) (k : S512x1024.Idx)
    (hk0 : (k 0).val = win0_1.index t (0 : Fin 2) * 512 + a.val) (hk1 : (k 1).val = win0_1.index t (1 : Fin 2) * 1024 + j.val) :
    (iblk0 V c 1 t : Vec Ideal S512x1024 .f32) (ix2 a j) = wEncT V c k := by
  unfold iblk0
  rw [View.read_apply]
  show V c main_v2 _ = V c main_v2 _
  congr 1
  funext d
  apply Fin.ext
  match d with
  | ⟨0, _⟩ => show win0_1.index t (0 : Fin 2) * 512 + 1 * a.val = (k 0).val; omega
  | ⟨1, _⟩ => show win0_1.index t (1 : Fin 2) * 1024 + 1 * j.val = (k 1).val; omega

/-- The block point `t` stores, at `(q, j)`, is the whole product at the entry the output's block places `(q, j)`
    at: row `256 ×` the output's row block `+ q`, column `j`. -/
theorem enc_block_at (c : Dev nD) (t : Fin cfg0.N) (q : Fin 256) (j : Fin 1024) :
    k0_pay1 (iblk0 V c 0 t) (iblk0 V c 1 t) (ix2 q j) = encG V c (((cfg0.win 2).blk t).view.emb (ix2 q j)) := by
  obtain ⟨e0, e1, e2, e3, e4, e5⟩ := enc_idx_facts t
  refine (enc_pay_apply (iblk0 V c 0 t) (iblk0 V c 1 t) q j).trans ?_
  refine Finset.sum_congr rfl fun a _ => ?_
  have r0 : ((((cfg0.win 2).blk t).view.emb (ix2 q j)) 0).val = win0_2.index t (0 : Fin 2) * 256 + 1 * q.val := rfl
  have r1 : ((((cfg0.win 2).blk t).view.emb (ix2 q j)) 1).val = win0_2.index t (1 : Fin 2) * 1024 + 1 * j.val := rfl
  rw [enc_lhs_read V c t q a (ix2 ((((cfg0.win 2).blk t).view.emb (ix2 q j)) 0) a) (by show _ = _; rw [r0]; omega) (by show a.val = _; omega),
    enc_rhs_read V c t a j (ix2 a ((((cfg0.win 2).blk t).view.emb (ix2 q j)) 1)) (by show a.val = _; omega) (by show _ = _; rw [r1]; omega)]

/-- What point `t` writes back is block `t` of the whole product. -/
theorem enc_flushed_eq (c : Dev nD) (t : Fin cfg0.N) :
    (dat0 V c).flushed 2 t = ((cfg0.win 2).blk t).view.read (Elt Ideal) (encG V c) := by
  show (cfg0.win 2).cut (grid0.coords t) ((dat0 V c).after 2 t) = _
  rw [after0_2]
  unfold out0_2
  rw [View.canon_unit_zero enc_hz]
  simp only [View.ld_unit_zero (S := S256x512) enc_hz, View.ld_unit_zero (S := S512x1024) enc_hz]
  refine funext fun y => ?_
  obtain ⟨q, j, rfl⟩ : ∃ (q : Fin 256) (j : Fin 1024), y = ix2 q j := ⟨y 0, y 1, eq_ix2 (n0 := 256) (n1 := 1024) y⟩
  exact enc_block_at V c t q j

/-! ## The blocks tile the output -/

/-- An entry of the output is in point `t`'s block iff each coordinate is in the block's range on its axis. -/
theorem enc_mem_blk (t : Fin cfg0.N) (i : S1024x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v6).slice (win0_2.rect t)).set ↔ _
  rw [View.set_slice_whole, Rect.mem_set_unit]
  exact Iff.rfl

/-- Every entry of the output is in the block of the point whose row block holds its row. -/
theorem enc_cover (i : S1024x1024.Idx) :
    ∃ t : Fin cfg0.N, (cfg0.win 2).flush t = true ∧ i ∈ ((cfg0.win 2).blk t).view.set := by
  have hi0 : (i 0).val < 1024 := (i 0).isLt
  have hi1 : (i 1).val < 1024 := (i 1).isLt
  obtain ⟨t, ht⟩ := enc_idx_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [enc_mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1024 ≤ (i 1).val ∧ (i 1).val < win0_2.index t (1 : Fin 2) * 1024 + 1024; omega

/-- So the output array ends holding the whole product. -/
theorem enc_final (c : Dev nD) : (dat0 V c).arrAt 2 cfg0.N = encG V c :=
  (dat0 V c).arrAt_eq_of_cover 2 (encG V c) (fun t _ => enc_flushed_eq V c t) enc_cover

theorem enc_region (c : Dev nD) (p : Fin 1024) (j : Fin 1024) :
    encOut V c (ix2 p j) = ∑ a : Fin 512, encFlat V c (ix2 p a) * wEncT V c (ix2 a j) :=
  congrFun (enc_final V c) (ix2 p j)

end Cert.KernelIdeal.JointValue

end
-- ==== Proof.Region1.lean ====
/-
  The second matrix-product region, read as a value: its output array [256, 1024] ends holding, at (p, j), the sum
  over the 512 features a of the flattened decoder states at (p, a) times the transposed weight half at (a, j). The
  body is the first region's; the grid has one point, whose blocks are the whole arrays, so the one write-back is the
  whole product.
-/
import proofs.«171997_j69810398429358_1_alg».proof.Proof.Arrays
import proofs.«171997_j69810398429358_1_alg».proof.Proof.LibDot2
import Idealize.ShloMosaic.Lib.Pipeline.Value
import Idealize.ShloMosaic.Lib.ValueIdx

set_option maxRecDepth 16384

noncomputable section

namespace Cert.KernelIdeal.JointValue

open Idealize.ShloMosaic Idealize.ShloMosaic.TcCoe Idealize.ShloMosaic.ValueIdx Idealize.SL.Sem
open Cert.KernelIdeal Cert.KernelIdeal.Gen Cert.Joint

variable (V : (c : Dev nD) → (b : Ref sig .tc) → Buf (Elt Ideal) ((c : Thread nD τ).loc b))

/-! ## The product's dimension numbers: which coordinate of each operand is the output's, which is summed -/

/-- The left operand's row is the output's row. -/
theorem dec_dot_lhs_0 (i : S256x1024.Idx) (q : dot_S256x512_S512x1024_S256x1024_1_0_0_1_n_n.contr.Idx) :
    (dot_S256x512_S512x1024_S256x1024_1_0_0_1_n_n.lhsIdx i q 0).val = (i 0).val := by
  unfold DotDims.lhsIdx
  rw [dif_neg (show ¬(0 : Fin S256x512.rank) ∈ dot_S256x512_S512x1024_S256x1024_1_0_0_1_n_n.lhsBatch by decide), dif_pos (show (0 : Fin S256x512.rank) ∈ dot_S256x512_S512x1024_S256x1024_1_0_0_1_n_n.lhsNonContracting by decide)]
  rfl
/-- The left operand's column is the summed index. -/
theorem dec_dot_lhs_1 (i : S256x1024.Idx) (q : dot_S256x512_S512x1024_S256x1024_1_0_0_1_n_n.contr.Idx) :
    (dot_S256x512_S512x1024_S256x1024_1_0_0_1_n_n.lhsIdx i q 1).val = (q ⟨0, by decide⟩).val :=
  dot_S256x512_S512x1024_S256x1024_1_0_0_1_n_n.lhsIdx_val_of_single rfl i q
/-- The right operand's row is the summed index. -/
theorem dec_dot_rhs_0 (i : S256x1024.Idx) (q : dot_S256x512_S512x1024_S256x1024_1_0_0_1_n_n.contr.Idx) :
    (dot_S256x512_S512x1024_S256x1024_1_0_0_1_n_n.rhsIdx i q 0).val = (q ⟨0, by decide⟩).val :=
  dot_S256x512_S512x1024_S256x1024_1_0_0_1_n_n.rhsIdx_val_of_single rfl i q
/-- The right operand's column is the output's column. -/
theorem dec_dot_rhs_1 (i : S256x1024.Idx) (q : dot_S256x512_S512x1024_S256x1024_1_0_0_1_n_n.contr.Idx) :
    (dot_S256x512_S512x1024_S256x1024_1_0_0_1_n_n.rhsIdx i q 1).val = (i 1).val := by
  unfold DotDims.rhsIdx
  rw [dif_neg (show ¬(1 : Fin S512x1024.rank) ∈ dot_S256x512_S512x1024_S256x1024_1_0_0_1_n_n.rhsBatch by decide), dif_pos (show (1 : Fin S512x1024.rank) ∈ dot_S256x512_S512x1024_S256x1024_1_0_0_1_n_n.rhsNonContracting by decide)]
  rfl

/-! ## The one block: the body's stored value at an entry -/

/-- The stored block at row `q`, column `j` is the sum over `a` of the left block's `(q, a)` times the right
    block's `(a, j)`: the casts are of a shape to itself, the narrowing is the identity on extended reals, and the
    accumulator is zero. -/
theorem dec_pay_apply (x0 : Vec Ideal S256x512 .f32) (x1 : Vec Ideal S512x1024 .f32) (q : Fin 256) (j : Fin 1024) :
    k1_pay1 x0 x1 (ix2 q j) = ∑ a : Fin 512, x0 (ix2 q a) * x1 (ix2 a j) := by
  unfold k1_pay1
  refine (Cert.Lib.Dot2.matmul_zero_ix2 dot_S256x512_S512x1024_S256x1024_1_0_0_1_n_n none rfl rfl
    dec_dot_lhs_0 dec_dot_lhs_1 dec_dot_rhs_0 dec_dot_rhs_1 _ _ q j).trans ?_
  refine Finset.sum_congr rfl fun a _ => ?_
  rw [truncf_apply, truncf_apply, shapeCast_self, shapeCast_self]

/-! ## The whole product, and what the grid's one point writes of it -/

theorem dec_hz : (![0, 0] : Fin 2 → Nat) = fun _ => 0 := funext fun a => by fin_cases a <;> rfl

/-- The product of the two operand arrays as the region finds them: entry `(p, j)` is the sum over `a` of the
    left array's `(p, a)` times the right array's `(a, j)`. -/
abbrev decG (c : Dev nD) : FVec Ideal S256x1024 .f32 :=
  fun i => ∑ a : Fin 512, decFlat V c (ix2 (i 0) a) * wDecT V c (ix2 a (i 1))

/-- The printed index maps, decided at the grid's one point: every window's block is its whole array, at block
    index zero on both axes. -/
theorem dec_idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The output's one block is some point's. -/
theorem dec_idx_onto : ∃ t : Fin cfg1.N, win1_2.index t = ![0, 0] :=
  (by decide +kernel : ∃ t : Fin grid1.N, win1_2.index t = ![0, 0])

/-- The left operand's block at point `t`, at `(q, a)`, is the left array at the row `256 ×` the block's row index
    `+ q` and the column `512 ×` the block's column index `+ a`. -/
theorem dec_lhs_read (c : Dev nD) (t : Fin cfg1.N) (q : Fin 256) (a : Fin 512) (k : S256x512.Idx)
    (hk0 : (k 0).val = win1_0.index t (0 : Fin 2) * 256 + q.val) (hk1 : (k 1).val = win1_0.index t (1 : Fin 2) * 512 + a.val) :
    (iblk1 V c 0 t : Vec Ideal S256x512 .f32) (ix2 q a) = decFlat V c k := by
  unfold iblk1
  rw [View.read_apply]
  show V c main_v5 _ = V c main_v5 _
  congr 1
  funext d
  apply Fin.ext
  match d with
  | ⟨0, _⟩ => show win1_0.index t (0 : Fin 2) * 256 + 1 * q.val = (k 0).val; omega
  | ⟨1, _⟩ => show win1_0.index t (1 : Fin 2) * 512 + 1 * a.val = (k 1).val; omega

/-- The right operand's block at point `t`, at `(a, j)`, is the right array at the row `512 ×` the block's row
    index `+ a` and the column `1024 ×` the block's column index `+ j`. -/
theorem dec_rhs_read (c : Dev nD) (t : Fin cfg1.N) (a : Fin 512) (j : Fin 1024) (k : S512x1024.Idx)
    (hk0 : (k 0).val = win1_1.index t (0 : Fin 2) * 512 + a.val) (hk1 : (k 1).val = win1_1.index t (1 : Fin 2) * 1024 + j.val) :
    (iblk1 V c 1 t : Vec Ideal S512x1024 .f32) (ix2 a j) = wDecT V c k := by
  unfold iblk1
  rw [View.read_apply]
  show V c main_v3 _ = V c main_v3 _
  congr 1
  funext d
  apply Fin.ext
  match d with
  | ⟨0, _⟩ => show win1_1.index t (0 : Fin 2) * 512 + 1 * a.val = (k 0).val; omega
  | ⟨1, _⟩ => show win1_1.index t (1 : Fin 2) * 1024 + 1 * j.val = (k 1).val; omega

/-- The block point `t` stores, at `(q, j)`, is the whole product at the entry the output's block places `(q, j)`
    at, which is `(q, j)` itself. -/
theorem dec_block_at (c : Dev nD) (t : Fin cfg1.N) (q : Fin 256) (j : Fin 1024) :
    k1_pay1 (iblk1 V c 0 t) (iblk1 V c 1 t) (ix2 q j) = decG V c (((cfg1.win 2).blk t).view.emb (ix2 q j)) := by
  obtain ⟨e0, e1, e2, e3, e4, e5⟩ := dec_idx_facts t
  refine (dec_pay_apply (iblk1 V c 0 t) (iblk1 V c 1 t) q j).trans ?_
  refine Finset.sum_congr rfl fun a _ => ?_
  have r0 : ((((cfg1.win 2).blk t).view.emb (ix2 q j)) 0).val = win1_2.index t (0 : Fin 2) * 256 + 1 * q.val := rfl
  have r1 : ((((cfg1.win 2).blk t).view.emb (ix2 q j)) 1).val = win1_2.index t (1 : Fin 2) * 1024 + 1 * j.val := rfl
  rw [dec_lhs_read V c t q a (ix2 ((((cfg1.win 2).blk t).view.emb (ix2 q j)) 0) a) (by show _ = _; rw [r0]; omega) (by show a.val = _; omega),
    dec_rhs_read V c t a j (ix2 a ((((cfg1.win 2).blk t).view.emb (ix2 q j)) 1)) (by show a.val = _; omega) (by show _ = _; rw [r1]; omega)]

/-- What point `t` writes back is block `t` of the whole product. -/
theorem dec_flushed_eq (c : Dev nD) (t : Fin cfg1.N) :
    (dat1 V c).flushed 2 t = ((cfg1.win 2).blk t).view.read (Elt Ideal) (decG V c) := by
  show (cfg1.win 2).cut (grid1.coords t) ((dat1 V c).after 2 t) = _
  rw [after1_2]
  unfold out1_2
  rw [View.canon_unit_zero dec_hz]
  simp only [View.ld_unit_zero (S := S256x512) dec_hz, View.ld_unit_zero (S := S512x1024) dec_hz]
  refine funext fun y => ?_
  obtain ⟨q, j, rfl⟩ : ∃ (q : Fin 256) (j : Fin 1024), y = ix2 q j := ⟨y 0, y 1, eq_ix2 (n0 := 256) (n1 := 1024) y⟩
  exact dec_block_at V c t q j

/-! ## The one block is the whole output -/

/-- An entry of the output is in point `t`'s block iff each coordinate is in the block's range on its axis. -/
theorem dec_mem_blk (t : Fin cfg1.N) (i : S256x1024.Idx) :
    i ∈ ((cfg1.win 2).blk t).view.set ↔ ∀ a : Fin 2, win1_2.index t a * S256x1024.size a ≤ (i a).val ∧ (i a).val < win1_2.index t a * S256x1024.size a + S256x1024.size a := by
  show i ∈ ((View.whole main_v7).slice (win1_2.rect t)).set ↔ _
  rw [View.set_slice_whole, Rect.mem_set_unit]
  exact Iff.rfl

/-- Every entry of the output is in the one point's block. -/
theorem dec_cover (i : S256x1024.Idx) :
    ∃ t : Fin cfg1.N, (cfg1.win 2).flush t = true ∧ i ∈ ((cfg1.win 2).blk t).view.set := by
  have hi0 : (i 0).val < 256 := (i 0).isLt
  have hi1 : (i 1).val < 1024 := (i 1).isLt
  obtain ⟨t, ht⟩ := dec_idx_onto
  have q0 : win1_2.index t (0 : Fin 2) = 0 := congrFun ht 0
  have q1 : win1_2.index t (1 : Fin 2) = 0 := congrFun ht 1
  refine ⟨t, flush1_2 t, ?_⟩
  rw [dec_mem_blk]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 1024 ≤ (i 1).val ∧ (i 1).val < win1_2.index t (1 : Fin 2) * 1024 + 1024; omega

/-- So the output array ends holding the whole product. -/
theorem dec_final (c : Dev nD) : (dat1 V c).arrAt 2 cfg1.N = decG V c :=
  (dat1 V c).arrAt_eq_of_cover 2 (decG V c) (fun t _ => dec_flushed_eq V c t) dec_cover

theorem dec_region (c : Dev nD) (p : Fin 256) (j : Fin 1024) :
    decOut V c (ix2 p j) = ∑ a : Fin 512, decFlat V c (ix2 p a) * wDecT V c (ix2 a j) :=
  congrFun (dec_final V c) (ix2 p j)

end Cert.KernelIdeal.JointValue

end
-- ==== Proof.Region2.lean ====
/-
  The third kernel region, read as a value: the result array `[4, 256, 64, 1024]` ends holding, at `(b, t, u, j)`, the
  first projection at `(b, t, j)` plus the second at `(b, u, j)`. The body's stored value at an entry of its
  `[1, 32, 64, 1024]` block (casts, two broadcasts, one addition), what each of the 32 grid points writes back as a block
  of that one function of the two operand arrays, the blocks' cover of the result array, and the array itself.
-/
import proofs.«171997_j69810398429358_1_alg».proof.Proof.Arrays
import Idealize.ShloMosaic.Lib.Pipeline.Value
import Idealize.ShloMosaic.Lib.ValueIdx
import Idealize.ShloMosaic.Lib.ValueLayout

set_option maxRecDepth 16384

noncomputable section

namespace Cert.KernelIdeal.JointValue

open Idealize.ShloMosaic Idealize.ShloMosaic.TcCoe Idealize.ShloMosaic.ValueIdx Idealize.SL.Sem
open Cert.KernelIdeal Cert.KernelIdeal.Gen Cert.Joint

variable (V : (c : Dev nD) → (b : Ref sig .tc) → Buf (Elt Ideal) ((c : Thread nD τ).loc b))

/-! ## Three layout operations read at an index given by coordinates -/

/-- An `[a, c]` array cast to `[a, 1, c]` reads, at `(i, u, j)`, the operand at `(i, j)`: both have row-major position
`i * c + j`, the unit coordinate `u` being `0`. -/
theorem shapeCast_ac_a1c_apply {α : Type} {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, 1, c]` array broadcast to `[a, b, c]` reads, at `(i, u, j)`, the operand at `(i, 0, j)`: the middle axis is
the broadcast one. -/
theorem broadcastTo_a1c_abc_apply {α : Type} {a b c : ℕ} (v : (⟨3, ![a, 1, c]⟩ : Shape).Idx → α)
    (h : (⟨3, ![a, 1, c]⟩ : Shape).Broadcasts ⟨3, ![a, b, c]⟩) (i : Fin a) (u : Fin b) (j : Fin c) :
    broadcastTo ⟨3, ![a, b, c]⟩ v h (ix3 i u j) = v (ix3 i (0 : Fin 1) j) := by
  refine broadcastTo_apply v h (ix3 i u j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(i, u, j)`, the operand at `(0, u, j)`: the leading axis is
the broadcast one. -/
theorem broadcastTo_1bc_abc_apply {α : Type} {a b c : ℕ} (v : (⟨3, ![1, b, c]⟩ : Shape).Idx → α)
    (h : (⟨3, ![1, b, c]⟩ : Shape).Broadcasts ⟨3, ![a, b, c]⟩) (i : Fin a) (u : Fin b) (j : Fin c) :
    broadcastTo ⟨3, ![a, b, c]⟩ v h (ix3 i u j) = v (ix3 (0 : Fin 1) u j) := by
  refine broadcastTo_apply v h (ix3 i u j) (ix3 (0 : Fin 1) u j) fun ax => ?_
  match ax with
  | ⟨0, _⟩ => rfl
  | ⟨1, _⟩ =>
    show u.val = if b = 1 then 0 else u.val
    split
    · have := u.isLt; omega
    · rfl
  | ⟨2, _⟩ =>
    show j.val = if c = 1 then 0 else j.val
    split
    · have := j.isLt; omega
    · rfl

/-! ## The body's stored value at an entry -/

/-- What the body stores at entry `(z, r, u, j)` of its `[1, 32, 64, 1024]` block: entry `(0, r, j)` of the first
operand's block plus entry `(0, u, j)` of the second's. The first block is cast to `[32, 1, 1024]` and repeated along
the new middle axis, the second is kept at `[1, 64, 1024]` and repeated along the leading axis; the two are added
and the sum is cast back to rank 4. -/
theorem add_payload (x0 : Vec Ideal S1x32x1024 .f32) (x1 : Vec Ideal S1x64x1024 .f32)
    (z : Fin 1) (r : Fin 32) (u : Fin 64) (j : Fin 1024) :
    k2_pay1 x0 x1 (ix4 z r u j) = x0 (ix3 (0 : Fin 1) r j) + x1 (ix3 (0 : Fin 1) u j) := by
  unfold k2_pay1
  refine (shapeCast_abc_1abc_apply _ _ z r u j).trans ?_
  refine (addf_apply _ _ _).trans ?_
  refine congrArg₂ (· + ·) ?_ ?_
  · refine (broadcastTo_a1c_abc_apply _ _ r u j).trans ?_
    refine (shapeCast_ac_a1c_apply _ _ r (0 : Fin 1) j).trans ?_
    exact shapeCast_1ab_ab_apply _ _ r j
  · refine (broadcastTo_1bc_abc_apply _ _ r u j).trans ?_
    refine (shapeCast_ab_1ab_apply _ _ (0 : Fin 1) u j).trans ?_
    exact shapeCast_1ab_ab_apply _ _ u j

/-! ## What a grid point writes back -/

/-- The joint sum as one function of the two projections, index by index: entry `(b, t, u, j)` is the first projection
at `(b, t, j)` plus the second at `(b, u, j)`. -/
abbrev addValue (c : Dev nD) : FVec Ideal S4x256x64x1024 .f32 :=
  fun i => encP V c (ix3 (i 0) (i 1) (i 3)) + decP V c (ix3 (i 0) (i 2) (i 3))

/-- The zero offsets of a rank-3 and of a rank-4 whole-block access, as constant functions. -/
theorem add_offsets3 : (![0, 0, 0] : Fin 3 → Nat) = fun _ => 0 := funext fun a => by fin_cases a <;> rfl
theorem add_offsets4 : (![0, 0, 0, 0] : Fin 4 → Nat) = fun _ => 0 := funext fun a => by fin_cases a <;> rfl

/-- The printed index maps, decided over the 32 grid points `(g₀, g₁)`: the first operand's block index is
`(g₀, g₁, 0)`, the second's `(g₀, 0, 0)`, the result's `(g₀, g₁, 0, 0)`, with `g₀ ≤ 3` and `g₁ ≤ 7`. -/
theorem add_index_facts : ∀ t : Fin cfg2.N,
    win2_0.index t (0 : Fin 3) = win2_2.index t (0 : Fin 4) ∧ win2_0.index t (1 : Fin 3) = win2_2.index t (1 : Fin 4)
    ∧ win2_0.index t (2 : Fin 3) = 0
    ∧ win2_1.index t (0 : Fin 3) = win2_2.index t (0 : Fin 4) ∧ win2_1.index t (1 : Fin 3) = 0 ∧ win2_1.index t (2 : Fin 3) = 0
    ∧ win2_2.index t (2 : Fin 4) = 0 ∧ win2_2.index t (3 : Fin 4) = 0
    ∧ win2_2.index t (0 : Fin 4) ≤ 3 ∧ win2_2.index t (1 : Fin 4) ≤ 7 :=
  (by decide +kernel : ∀ t : Fin grid2.N, _)

/-- Every block `(q₀, q₁, 0, 0)` of the result, `q₀ < 4`, `q₁ < 8`, is some grid point's. -/
theorem add_index_onto : ∀ (q0 : Fin 4) (q1 : Fin 8), ∃ t : Fin cfg2.N, win2_2.index t = ![q0.val, q1.val, 0, 0] :=
  (by decide +kernel : ∀ (q0 : Fin 4) (q1 : Fin 8), ∃ t : Fin grid2.N, win2_2.index t = ![q0.val, q1.val, 0, 0])

/-- What grid point `t` writes back is block `t` of the joint sum: at entry `(z, r, u, j)` of the block the body stores
the first operand's block at `(0, r, j)` plus the second's at `(0, u, j)`; with `(g₀, g₁)` the point's block index these
are the first projection at `(g₀, 32 g₁ + r, j)` and the second at `(g₀, u, j)`, and the entry sits in the result array at
`(g₀, 32 g₁ + r, u, j)`. -/
theorem add_flushed_eq (c : Dev nD) (t : Fin cfg2.N) :
    (dat2 V c).flushed 2 t = ((cfg2.win 2).blk t).view.read (Elt Ideal) (addValue V c) := by
  show (cfg2.win 2).cut (grid2.coords t) ((dat2 V c).after 2 t) = _
  rw [after2_2]
  unfold out2_2
  rw [View.canon_unit_zero add_offsets4]
  simp only [View.ld_unit_zero (S := S1x32x1024) add_offsets3, View.ld_unit_zero (S := S1x64x1024) add_offsets3]
  funext y
  obtain ⟨z, r, u, j, rfl⟩ : ∃ (z : Fin 1) (r : Fin 32) (u : Fin 64) (j : Fin 1024), y = ix4 z r u j :=
    ⟨y 0, y 1, y 2, y 3, eq_ix4 y⟩
  obtain ⟨e00, e01, e02, e10, e11, e12, e22, e23, l0, l1⟩ := add_index_facts t
  have hz : z.val = 0 := by omega
  have hr : r.val < 32 := r.isLt
  show k2_pay1 (iblk2 V c 0 t) (iblk2 V c 1 t) (ix4 z r u j)
    = addValue V c (((cfg2.win 2).blk t).view.emb (ix4 z r u j))
  refine (add_payload (iblk2 V c 0 t) (iblk2 V c 1 t) z r u j).trans ?_
  -- the three blocks' entries, as entries of the arrays: a block's coordinate is index × size + 1 × the coordinate inside
  have h0 : ((cfg2.win 0).blk t).view.emb (ix3 (0 : Fin 1) r j)
      = ix3 (⟨win2_2.index t (0 : Fin 4), by omega⟩ : Fin 4) (⟨win2_2.index t (1 : Fin 4) * 32 + r.val, by omega⟩ : Fin 256) j := by
    funext a; apply Fin.ext
    match a with
    | ⟨0, _⟩ => show win2_0.index t (0 : Fin 3) * 1 + 1 * 0 = win2_2.index t (0 : Fin 4); omega
    | ⟨1, _⟩ => show win2_0.index t (1 : Fin 3) * 32 + 1 * r.val = win2_2.index t (1 : Fin 4) * 32 + r.val; omega
    | ⟨2, _⟩ => show win2_0.index t (2 : Fin 3) * 1024 + 1 * j.val = j.val; omega
  have h1 : ((cfg2.win 1).blk t).view.emb (ix3 (0 : Fin 1) u j)
      = ix3 (⟨win2_2.index t (0 : Fin 4), by omega⟩ : Fin 4) u j := by
    funext a; apply Fin.ext
    match a with
    | ⟨0, _⟩ => show win2_1.index t (0 : Fin 3) * 1 + 1 * 0 = win2_2.index t (0 : Fin 4); omega
    | ⟨1, _⟩ => show win2_1.index t (1 : Fin 3) * 64 + 1 * u.val = u.val; omega
    | ⟨2, _⟩ => show win2_1.index t (2 : Fin 3) * 1024 + 1 * j.val = j.val; omega
  have h2 : ((cfg2.win 2).blk t).view.emb (ix4 z r u j)
      = ix4 (⟨win2_2.index t (0 : Fin 4), by omega⟩ : Fin 4) (⟨win2_2.index t (1 : Fin 4) * 32 + r.val, by omega⟩ : Fin 256) u j := by
    funext a; apply Fin.ext
    match a with
    | ⟨0, _⟩ => show win2_2.index t (0 : Fin 4) * 1 + 1 * z.val = win2_2.index t (0 : Fin 4); omega
    | ⟨1, _⟩ => show win2_2.index t (1 : Fin 4) * 32 + 1 * r.val = win2_2.index t (1 : Fin 4) * 32 + r.val; omega
    | ⟨2, _⟩ => show win2_2.index t (2 : Fin 4) * 64 + 1 * u.val = u.val; omega
    | ⟨3, _⟩ => show win2_2.index t (3 : Fin 4) * 1024 + 1 * j.val = j.val; omega
  show encP V c (((cfg2.win 0).blk t).view.emb (ix3 (0 : Fin 1) r j)) + decP V c (((cfg2.win 1).blk t).view.emb (ix3 (0 : Fin 1) u j))
    = addValue V c (((cfg2.win 2).blk t).view.emb (ix4 z r u j))
  rw [h0, h1, h2]

/-! ## The blocks cover the array -/

/-- An index of the result array is in grid point `t`'s block iff each coordinate is in the block's range on its axis. -/
theorem add_mem_block (t : Fin cfg2.N) (i : S4x256x64x1024.Idx) :
    i ∈ ((cfg2.win 2).blk t).view.set ↔ ∀ a : Fin 4, win2_2.index t a * S1x32x64x1024.size a ≤ (i a).val
      ∧ (i a).val < win2_2.index t a * S1x32x64x1024.size a + S1x32x64x1024.size a := by
  show i ∈ ((View.whole main_v10).slice (win2_2.rect t)).set ↔ _
  rw [View.set_slice_whole, Rect.mem_set_unit]
  exact Iff.rfl

/-- Every index `(b, t, u, j)` of the result array lies in the block of the grid point whose block index is
`(b, t / 32, 0, 0)`: the blocks are `[1, 32, 64, 1024]`, whole along the last two axes. -/
theorem add_blocks_cover (i : S4x256x64x1024.Idx) :
    ∃ t : Fin cfg2.N, (cfg2.win 2).flush t = true ∧ i ∈ ((cfg2.win 2).blk t).view.set := by
  have hi0 : (i 0).val < 4 := (i 0).isLt
  have hi1 : (i 1).val < 256 := (i 1).isLt
  have hi2 : (i 2).val < 64 := (i 2).isLt
  have hi3 : (i 3).val < 1024 := (i 3).isLt
  obtain ⟨t, ht⟩ := add_index_onto ⟨(i 0).val, hi0⟩ ⟨(i 1).val / 32, by omega⟩
  have q0 : win2_2.index t (0 : Fin 4) = (i 0).val := congrFun ht 0
  have q1 : win2_2.index t (1 : Fin 4) = (i 1).val / 32 := congrFun ht 1
  have q2 : win2_2.index t (2 : Fin 4) = 0 := congrFun ht 2
  have q3 : win2_2.index t (3 : Fin 4) = 0 := congrFun ht 3
  refine ⟨t, flush2_2 t, ?_⟩
  rw [add_mem_block]
  intro a
  match a with
  | ⟨0, _⟩ => show win2_2.index t (0 : Fin 4) * 1 ≤ (i 0).val ∧ (i 0).val < win2_2.index t (0 : Fin 4) * 1 + 1; omega
  | ⟨1, _⟩ => show win2_2.index t (1 : Fin 4) * 32 ≤ (i 1).val ∧ (i 1).val < win2_2.index t (1 : Fin 4) * 32 + 32; omega
  | ⟨2, _⟩ => show win2_2.index t (2 : Fin 4) * 64 ≤ (i 2).val ∧ (i 2).val < win2_2.index t (2 : Fin 4) * 64 + 64; omega
  | ⟨3, _⟩ => show win2_2.index t (3 : Fin 4) * 1024 ≤ (i 3).val ∧ (i 3).val < win2_2.index t (3 : Fin 4) * 1024 + 1024; omega

/-! ## The result array -/

/-- After the region's write-backs the result array is the joint sum of the two projections, index by index. -/
theorem sumOut_eq (c : Dev nD) : (dat2 V c).arrAt 2 cfg2.N = addValue V c :=
  (dat2 V c).arrAt_eq_of_cover 2 (addValue V c) (fun t _ => add_flushed_eq V c t) add_blocks_cover

theorem add_region (c : Dev nD) (b : Fin 4) (t : Fin 256) (u : Fin 64) (j : Fin 1024) :
    sumOut V c (ix4 b t u j) = encP V c (ix3 b t j) + decP V c (ix3 b u j) :=
  congrFun (sumOut_eq V c) (ix4 b t u j)

end Cert.KernelIdeal.JointValue

end
-- ==== Proof.Stretch0.lean ====
import proofs.«171997_j69810398429358_1_alg».proof.Proof.Arrays
import proofs.«171997_j69810398429358_1_alg».proof.Proof.Spec
import Idealize.ShloMosaic.Lib.Pipeline.Value
import Idealize.ShloMosaic.Lib.ValueIdx
import Idealize.ShloMosaic.Lib.StableHlo.Run

/-
  What the host operations before the first matrix product leave in the four arrays the products read,
  one entry at a time, in terms of the three launch arguments.

  The encoder states e : [4, 256, 512] are reshaped to [1024, 512]: row b * 256 + t of the flat array is
  row (b, t) of e, since a reshape keeps every entry's row-major position. The decoder states
  d : [4, 64, 512] are reshaped to [256, 512] the same way, row b * 64 + u being row (b, u). The weight
  w : [1024, 1024] is cut into its column halves [0, 512) and [512, 1024), and each half is transposed:
  entry (a, j) of the first transposed half is w[j, a], of the second w[j, 512 + a].
-/

set_option maxRecDepth 16384

noncomputable section

namespace Cert.KernelIdeal.JointValue

open Idealize.ShloMosaic Idealize.ShloMosaic.TcCoe Idealize.ShloMosaic.ValueIdx Idealize.SL.Sem
open Cert.KernelIdeal Cert.KernelIdeal.Gen Cert.Joint

variable (m : (ℓ : Loc nD τ sig) → Buf (Elt Ideal) ℓ) (ρ : Dev nD → PrngReg)

/-! ## The four arrays as whole terms over the launch arguments -/

/-- The flat encoder states are the reshape of the first argument. -/
theorem encFlat_arr (c : Dev nD) :
    (V1 m ρ c main_v4 : S1024x512.Idx → Elt Ideal .f32) =
      shapeCast S1024x512 (m ((c : Thread nD τ).loc main_arg0)) shapeCasts_S4x256x512_S1024x512 := by
  show StableHlo.after hostOps0 (W0 m ρ c) (Proc.devRef .tc main_v4) = _
  after_results
  rfl

/-- The flat decoder states are the reshape of the second argument. -/
theorem decFlat_arr (c : Dev nD) :
    (V1 m ρ c main_v5 : S256x512.Idx → Elt Ideal .f32) =
      shapeCast S256x512 (m ((c : Thread nD τ).loc main_arg1)) shapeCasts_S4x64x512_S256x512 := by
  show StableHlo.after hostOps0 (W0 m ρ c) (Proc.devRef .tc main_v5) = _
  after_results
  rfl

/-- The first transposed weight half: the transpose of the weight's columns [0, 512). -/
theorem wEncT_arr (c : Dev nD) :
    (V1 m ρ c main_v2 : S512x1024.Idx → Elt Ideal .f32) =
      transpose S512x1024 [1, 0]
        (extractStridedSlice S1024x512 ![0, 0] (m ((c : Thread nD τ).loc main_arg2)) slices_S1024x1024_S1024x512_0_0)
        transposes_S1024x512_S512x1024_1_0 := by
  show StableHlo.after hostOps0 (W0 m ρ c) (Proc.devRef .tc main_v2) = _
  after_results

/-- The second transposed weight half: the transpose of the weight's columns [512, 1024). -/
theorem wDecT_arr (c : Dev nD) :
    (V1 m ρ c main_v3 : S512x1024.Idx → Elt Ideal .f32) =
      transpose S512x1024 [1, 0]
        (extractStridedSlice S1024x512 ![0, 512] (m ((c : Thread nD τ).loc main_arg2)) slices_S1024x1024_S1024x512_0_512)
        transposes_S1024x512_S512x1024_1_0 := by
  show StableHlo.after hostOps0 (W0 m ρ c) (Proc.devRef .tc main_v3) = _
  after_results

/-! ## Reading a reshape, and a transposed column half, at an index (over variables of literal types) -/

/-- A reshape [4, 256, 512] → [1024, 512] read at row b * 256 + t: the row-major positions agree. -/
theorem reshape_enc_apply (x : S4x256x512.Idx → Elt Ideal .f32) (h : S4x256x512.ShapeCasts S1024x512)
    (b : Fin 4) (t : Fin 256) (a : Fin 512) :
    shapeCast S1024x512 x h (ix2 (encRow b t) a) = x (ix3 b t a) := by
  refine shapeCast_apply x h _ _ ?_
  rw [Shape.rowMajor_val_three, Shape.rowMajor_val_two]
  show (b.val * 256 + t.val) * 512 + a.val = (encRow b t).val * 512 + a.val
  rw [encRow_val]

/-- A reshape [4, 64, 512] → [256, 512] read at row b * 64 + u: the row-major positions agree. -/
theorem reshape_dec_apply (x : S4x64x512.Idx → Elt Ideal .f32) (h : S4x64x512.ShapeCasts S256x512)
    (b : Fin 4) (u : Fin 64) (a : Fin 512) :
    shapeCast S256x512 x h (ix2 (decRow b u) a) = x (ix3 b u a) := by
  refine shapeCast_apply x h _ _ ?_
  rw [Shape.rowMajor_val_three, Shape.rowMajor_val_two]
  show (b.val * 64 + u.val) * 512 + a.val = (decRow b u).val * 512 + a.val
  rw [decRow_val]

/-- The transpose of the columns [0, 512) read at (a, j) is the matrix at (j, a). -/
theorem transpose_lo_apply (x : S1024x1024.Idx → Elt Ideal .f32) (hs : S1024x1024.Slices ![0, 0] S1024x512)
    (ht : S1024x512.Transposes [1, 0] S512x1024) (a : Fin 512) (j : Fin 1024) :
    transpose S512x1024 [1, 0] (extractStridedSlice S1024x512 ![0, 0] x hs) ht (ix2 a j) = x (ix2 j (colLo a)) := by
  rw [transpose_apply [1, 0] _ ht (ix2 a j) (ix2 j a) (fun b => match b with
    | ⟨0, _⟩ => rfl
    | ⟨1, _⟩ => rfl)]
  exact extractStridedSlice_apply ![0, 0] x hs (ix2 j a) (ix2 j (colLo a)) (fun b => match b with
    | ⟨0, _⟩ => by show j.val = 0 + j.val; omega
    | ⟨1, _⟩ => by show (colLo a).val = 0 + a.val; rw [colLo_val]; omega)

/-- The transpose of the columns [512, 1024) read at (a, j) is the matrix at (j, 512 + a). -/
theorem transpose_hi_apply (x : S1024x1024.Idx → Elt Ideal .f32) (hs : S1024x1024.Slices ![0, 512] S1024x512)
    (ht : S1024x512.Transposes [1, 0] S512x1024) (a : Fin 512) (j : Fin 1024) :
    transpose S512x1024 [1, 0] (extractStridedSlice S1024x512 ![0, 512] x hs) ht (ix2 a j) = x (ix2 j (colHi a)) := by
  rw [transpose_apply [1, 0] _ ht (ix2 a j) (ix2 j a) (fun b => match b with
    | ⟨0, _⟩ => rfl
    | ⟨1, _⟩ => rfl)]
  exact extractStridedSlice_apply ![0, 512] x hs (ix2 j a) (ix2 j (colHi a)) (fun b => match b with
    | ⟨0, _⟩ => by show j.val = 0 + j.val; omega
    | ⟨1, _⟩ => by show (colHi a).val = 512 + a.val; rw [colHi_val])

/-! ## The four entries -/

theorem flat_enc (c : Dev nD) (b : Fin 4) (t : Fin 256) (a : Fin 512) :
    V1 m ρ c main_v4 (ix2 (encRow b t) a) = m ((c : Thread nD τ).loc main_arg0) (ix3 b t a) :=
  (congrFun (encFlat_arr m ρ c) (ix2 (encRow b t) a)).trans (reshape_enc_apply _ _ b t a)
theorem flat_dec (c : Dev nD) (b : Fin 4) (u : Fin 64) (a : Fin 512) :
    V1 m ρ c main_v5 (ix2 (decRow b u) a) = m ((c : Thread nD τ).loc main_arg1) (ix3 b u a) :=
  (congrFun (decFlat_arr m ρ c) (ix2 (decRow b u) a)).trans (reshape_dec_apply _ _ b u a)
theorem wenc_t (c : Dev nD) (a : Fin 512) (j : Fin 1024) :
    V1 m ρ c main_v2 (ix2 a j) = m ((c : Thread nD τ).loc main_arg2) (ix2 j (colLo a)) :=
  (congrFun (wEncT_arr m ρ c) (ix2 a j)).trans (transpose_lo_apply _ _ _ a j)
theorem wdec_t (c : Dev nD) (a : Fin 512) (j : Fin 1024) :
    V1 m ρ c main_v3 (ix2 a j) = m ((c : Thread nD τ).loc main_arg2) (ix2 j (colHi a)) :=
  (congrFun (wDecT_arr m ρ c) (ix2 a j)).trans (transpose_hi_apply _ _ _ a j)

end Cert.KernelIdeal.JointValue

end
-- ==== Proof.Stretch2.lean ====
/-
  The two reshapes between the matrix products and the broadcast add, read at an entry.

  A reshape keeps an entry's row-major position. The encoder's projection, produced flat as [4 * 256, 1024], is
  re-shaped to [4, 256, 1024]: entry (b, t, j) is the flat entry in row b * 256 + t, column j. Likewise the decoder's,
  flat [4 * 64, 1024] to [4, 64, 1024]: entry (b, u, j) is the flat entry in row b * 64 + u, column j.
-/
import proofs.«171997_j69810398429358_1_alg».proof.Proof.Arrays
import proofs.«171997_j69810398429358_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.JointValue

open Idealize.ShloMosaic Idealize.ShloMosaic.TcCoe Idealize.ShloMosaic.ValueIdx Idealize.SL.Sem
open Cert.KernelIdeal Cert.KernelIdeal.Gen Cert.Joint

variable (m : (ℓ : Loc nD τ sig) → Buf (Elt Ideal) ℓ) (ρ : Dev nD → PrngReg)

/-- The re-shaped encoder projection as the third region finds it: the flat array the first region left, cast. -/
theorem encP_whole (c : Dev nD) :
    (V4 m ρ c main_v8 : S4x256x1024.Idx → Elt Ideal .f32)
      = shapeCast S4x256x1024 (W3 m ρ c (Proc.devRef .tc main_v6)) shapeCasts_S1024x1024_S4x256x1024 := by
  show StableHlo.after hostOps2 (W3 m ρ c) (Proc.devRef .tc main_v8) = _
  after_results
  rfl

/-- The re-shaped decoder projection as the third region finds it: the flat array the second region left, cast. -/
theorem decP_whole (c : Dev nD) :
    (V4 m ρ c main_v9 : S4x64x1024.Idx → Elt Ideal .f32)
      = shapeCast S4x64x1024 (W3 m ρ c (Proc.devRef .tc main_v7)) shapeCasts_S256x1024_S4x64x1024 := by
  show StableHlo.after hostOps2 (W3 m ρ c) (Proc.devRef .tc main_v9) = _
  after_results
  rfl

/-- Entry (b, t, j) of the re-shaped encoder projection is the flat entry (b * 256 + t, j). -/
theorem unflat_enc (c : Dev nD) (b : Fin 4) (t : Fin 256) (j : Fin 1024) :
    V4 m ρ c main_v8 (ix3 b t j) = W3 m ρ c (Proc.devRef .tc main_v6) (ix2 (encRow b t) j) := by
  refine (congrFun (encP_whole m ρ c) (ix3 b t j)).trans ?_
  exact shapeCast_apply _ _ _ _ (by
    show (S1024x1024.rowMajor (ix2 (encRow b t) j)).val = (S4x256x1024.rowMajor (ix3 b t j)).val
    rw [Shape.rowMajor_val_two, Shape.rowMajor_val_three]
    show (encRow b t).val * 1024 + j.val = (b.val * 256 + t.val) * 1024 + j.val
    rw [encRow_val])

/-- Entry (b, u, j) of the re-shaped decoder projection is the flat entry (b * 64 + u, j). -/
theorem unflat_dec (c : Dev nD) (b : Fin 4) (u : Fin 64) (j : Fin 1024) :
    V4 m ρ c main_v9 (ix3 b u j) = W3 m ρ c (Proc.devRef .tc main_v7) (ix2 (decRow b u) j) := by
  refine (congrFun (decP_whole m ρ c) (ix3 b u j)).trans ?_
  exact shapeCast_apply _ _ _ _ (by
    show (S256x1024.rowMajor (ix2 (decRow b u) j)).val = (S4x64x1024.rowMajor (ix3 b u j)).val
    rw [Shape.rowMajor_val_two, Shape.rowMajor_val_three]
    show (decRow b u).val * 1024 + j.val = (b.val * 64 + u.val) * 1024 + j.val
    rw [decRow_val])

end Cert.KernelIdeal.JointValue

end
-- ==== Proof.KValue.lean ====
/-
  The kernel program's result is the joint function of its arguments.

  The result array is what the third region leaves: at (b, t, u, j) the sum of the re-shaped encoder projection at
  (b, t, j) and the re-shaped decoder projection at (b, u, j). Each re-shaped projection entry is an entry of the flat
  array a matrix-product region left (row b * 256 + t, resp. b * 64 + u); the first region's output is untouched by
  the second region, and the second region's operands are untouched by the first. A flat projection entry is the sum
  over the 512 features of a flattened state entry times a transposed weight entry, and those, read back through
  the reshapes, the transposes and the column slices before the first region, are the argument arrays' entries
  e[b, t, k] * w[j, k] and d[b, u, k] * w[j, 512 + k].
-/
import proofs.«171997_j69810398429358_1_alg».proof.Proof.Region0
import proofs.«171997_j69810398429358_1_alg».proof.Proof.Region1
import proofs.«171997_j69810398429358_1_alg».proof.Proof.Region2
import proofs.«171997_j69810398429358_1_alg».proof.Proof.Stretch0
import proofs.«171997_j69810398429358_1_alg».proof.Proof.Stretch2
import proofs.«171997_j69810398429358_1_alg».proof.Proof.Spec

set_option maxRecDepth 16384

noncomputable section

namespace Cert.KernelIdeal.JointValue

open Idealize.ShloMosaic Idealize.ShloMosaic.TcCoe Idealize.ShloMosaic.ValueIdx Idealize.SL.Sem
open Cert.KernelIdeal Cert.KernelIdeal.Gen Cert.Joint

variable (m : (ℓ : Loc nD τ sig) → Buf (Elt Ideal) ℓ) (ρ : Dev nD → PrngReg)

/-- The encoder projection as the third region finds it, at (b, t, j): the encoder's row (b, t) against the
    weight's row j over its first 512 columns. -/
theorem encP_entry (c : Dev nD) (b : Fin 4) (t : Fin 256) (j : Fin 1024) :
    encP (V4 m ρ) c (ix3 b t j)
      = encProj (m ((c : Thread nD τ).loc main_arg0)) (m ((c : Thread nD τ).loc main_arg2)) b t j := by
  show V4 m ρ c main_v8 (ix3 b t j) = _
  rw [unflat_enc]
  -- the second region does not write the first region's output
  have h32 : W3 m ρ c (Proc.devRef .tc main_v6) = W2 m ρ c (Proc.devRef .tc main_v6) :=
    W3_of_ne m ρ c main_v6 (by decide)
  have h2 : W2 m ρ c (Proc.devRef .tc main_v6) = (dat0 (V1 m ρ) c).arrAt 2 cfg0.N := W2_arr m ρ c 2
  refine (congrFun (h32.trans h2) (ix2 (encRow b t) j)).trans ?_
  refine (enc_region (V1 m ρ) c (encRow b t) j).trans ?_
  unfold encProj
  refine Finset.sum_congr rfl fun a _ => ?_
  exact congrArg₂ (· * ·) (flat_enc m ρ c b t a) (wenc_t m ρ c a j)

/-- The decoder projection as the third region finds it, at (b, u, j): the decoder's row (b, u) against the
    weight's row j over its last 512 columns. -/
theorem decP_entry (c : Dev nD) (b : Fin 4) (u : Fin 64) (j : Fin 1024) :
    decP (V4 m ρ) c (ix3 b u j)
      = decProj (m ((c : Thread nD τ).loc main_arg1)) (m ((c : Thread nD τ).loc main_arg2)) b u j := by
  show V4 m ρ c main_v9 (ix3 b u j) = _
  rw [unflat_dec]
  have h3 : W3 m ρ c (Proc.devRef .tc main_v7) = (dat1 (V2 m ρ) c).arrAt 2 cfg1.N := W3_arr m ρ c 2
  refine (congrFun h3 (ix2 (decRow b u) j)).trans ?_
  refine (dec_region (V2 m ρ) c (decRow b u) j).trans ?_
  unfold decProj
  refine Finset.sum_congr rfl fun a _ => ?_
  -- the first region writes neither of the second region's operands
  have h5 : V2 m ρ c main_v5 = V1 m ρ c main_v5 := W2_of_ne m ρ c main_v5 (by decide)
  have h3' : V2 m ρ c main_v3 = V1 m ρ c main_v3 := W2_of_ne m ρ c main_v3 (by decide)
  exact congrArg₂ (· * ·) ((congrFun h5 (ix2 (decRow b u) a)).trans (flat_dec m ρ c b u a))
    ((congrFun h3' (ix2 a j)).trans (wdec_t m ρ c a j))

/-- The result array after the run is the joint function of the three argument arrays. -/
theorem result_eq (c : Dev nD) :
    W5 m ρ c (Proc.devRef .tc main_v10) = joint (m ((c : Thread nD τ).loc main_arg0)) (m ((c : Thread nD τ).loc main_arg1)) (m ((c : Thread nD τ).loc main_arg2)) := by
  funext i
  obtain ⟨b, t, u, j, rfl⟩ : ∃ (b : Fin 4) (t : Fin 256) (u : Fin 64) (j : Fin 1024), i = ix4 b t u j :=
    ⟨i 0, i 1, i 2, i 3, eq_ix4 i⟩
  have h5 : W5 m ρ c (Proc.devRef .tc main_v10) = (dat2 (V4 m ρ) c).arrAt 2 cfg2.N := W5_arr m ρ c 2
  refine (congrFun h5 (ix4 b t u j)).trans ?_
  refine (add_region (V4 m ρ) c b t u j).trans ?_
  rw [joint_ix4, encP_entry, decP_entry]

end Cert.KernelIdeal.JointValue

end
-- ==== Proof.RefValue.lean ====
import proofs.«171997_j69810398429358_1_alg».proof.Defs
import proofs.«171997_j69810398429358_1_alg».proof.Proof.Gen.ReferenceIdeal.Run
import proofs.«171997_j69810398429358_1_alg».proof.Proof.Gen.ReferenceIdeal.Read
import proofs.«171997_j69810398429358_1_alg».proof.Proof.Spec

/-
  The reference program computes the joint function.

  Read one operation at a time, the reference's output at (b, t, u, c) is the sum of two broadcast
  projections. The encoder's term goes back through two broadcasts (which drop the label axis u) to
  the contraction of e[b, t, ·] against row c of the weight's first column half; the decoder's term
  goes back through two broadcasts (which drop the time axis t) to the contraction of d[b, u, ·]
  against row c of the weight's second column half. The only work is to identify the composed index
  functions of the layout operations with the coordinates (b, t, k), (c, k) and (c, 512 + k).
-/

noncomputable section

namespace Cert.ReferenceIdeal.JointValue

open Idealize.ShloMosaic Idealize.ShloMosaic.TcCoe Idealize.ShloMosaic.ValueIdx Idealize.SL.Sem
open Cert.ReferenceIdeal Cert.ReferenceIdeal.Gen Cert.ReferenceIdeal.Read Cert.Joint

/-- Through the two broadcasts, the encoder's contraction reads the states at (b, t, k):
the label coordinate u is dropped. -/
theorem enc_lhs_idx (b : Fin 4) (t : Fin 256) (u : Fin 64) (c : Fin 1024) (k : Fin 512) :
    lidx_main_v2 (idx_main_v4 (idx_main_v6 (ix4 b t u c))) k = ix3 b t k :=
  funext fun a => Fin.ext (by
    match a with
    | ⟨0, _⟩ => rfl
    | ⟨1, _⟩ => rfl
    | ⟨2, _⟩ => rfl)

/-- Through the two broadcasts and the slice of the first column half, the encoder's contraction
reads the weight at (c, k). -/
theorem enc_rhs_idx (b : Fin 4) (t : Fin 256) (u : Fin 64) (c : Fin 1024) (k : Fin 512) :
    idx_main_v0 (ridx_main_v2 (idx_main_v4 (idx_main_v6 (ix4 b t u c))) k) = ix2 c (colLo k) :=
  funext fun a => Fin.ext (by
    match a with
    | ⟨0, _⟩ => rfl
    | ⟨1, _⟩ => rfl)

/-- Through the two broadcasts, the decoder's contraction reads the states at (b, u, k):
the time coordinate t is dropped. -/
theorem dec_lhs_idx (b : Fin 4) (t : Fin 256) (u : Fin 64) (c : Fin 1024) (k : Fin 512) :
    lidx_main_v3 (idx_main_v5 (idx_main_v7 (ix4 b t u c))) k = ix3 b u k :=
  funext fun a => Fin.ext (by
    match a with
    | ⟨0, _⟩ => rfl
    | ⟨1, _⟩ => rfl
    | ⟨2, _⟩ => rfl)

/-- Through the two broadcasts and the slice of the second column half, the decoder's contraction
reads the weight at (c, 512 + k). -/
theorem dec_rhs_idx (b : Fin 4) (t : Fin 256) (u : Fin 64) (c : Fin 1024) (k : Fin 512) :
    idx_main_v1 (ridx_main_v3 (idx_main_v5 (idx_main_v7 (ix4 b t u c))) k) = ix2 c (colHi k) :=
  funext fun a => Fin.ext (by
    match a with
    | ⟨0, _⟩ => rfl
    | ⟨1, _⟩ => rfl)

theorem ref_eq (x0 : (⟨S4x256x512, .f32⟩ : BufTy).Contents (Elt Ideal)) (x1 : (⟨S4x64x512, .f32⟩ : BufTy).Contents (Elt Ideal))
    (x2 : (⟨S1024x1024, .f32⟩ : BufTy).Contents (Elt Ideal)) :
    val_main_v8 (F := Ideal) x0 x1 x2 = joint x0 x1 x2 := by
  funext i
  obtain ⟨b, t, u, c, rfl⟩ : ∃ (b : Fin 4) (t : Fin 256) (u : Fin 64) (c : Fin 1024), i = ix4 b t u c :=
    ⟨i 0, i 1, i 2, i 3, eq_ix4 i⟩
  rw [joint_ix4]
  -- the output element is the sum of the two broadcast projections, each a contraction over k
  rw [val_main_v8_apply, val_main_v6_apply, val_main_v4_apply, val_main_v2_apply,
    val_main_v7_apply, val_main_v5_apply, val_main_v3_apply]
  unfold encProj decProj
  show (∑ k : Fin 512, _) + (∑ k : Fin 512, _) = _
  congr 1
  · -- encoder half: term k is e[b, t, k] * w[c, k]
    refine Finset.sum_congr rfl fun k _ => ?_
    rw [val_main_v0_apply, enc_lhs_idx, enc_rhs_idx]
  · -- decoder half: term k is d[b, u, k] * w[c, 512 + k]
    refine Finset.sum_congr rfl fun k _ => ?_
    rw [val_main_v1_apply, dec_lhs_idx, dec_rhs_idx]

end Cert.ReferenceIdeal.JointValue

end
-- ==== Proof.lean ====
/-
  The certificate of the joint network kernel against its reference.

  Both programs compute, at (b, t, u, c), the encoder state's row (b, t) against the first 512 columns of the
  weight's row c, plus the decoder state's row (b, u) against its last 512 columns (`Cert.Joint.joint`). The kernel
  program does it in three regions — two matrix products on the flattened states and the transposed weight halves,
  then a broadcast add over blocks — with reshapes, slices and transposes on the host between them; the reference in
  two contractions, two broadcasts each and one add. At the ideal instance a change of float format is the identity
  and a matrix product into a zero accumulator is the plain sum, so both results are that one function of the
  argument arrays, entry by entry, with the same order of factors and of summation: no algebraic law is needed, and
  the inputs' finiteness is never used.

  The three frames: the two kernel programs' are the generated frame certificates; the reference's is its generated
  run with the result dropped. The idealization rewrote no operation, so `preserves` is trivial.
-/
import proofs.«171997_j69810398429358_1_alg».proof.Defs
import proofs.«171997_j69810398429358_1_alg».proof.Proof.Gen.Kernel
import proofs.«171997_j69810398429358_1_alg».proof.Proof.Gen.Kernel.Skeleton
import proofs.«171997_j69810398429358_1_alg».proof.Proof.Gen.Kernel.Launch
import proofs.«171997_j69810398429358_1_alg».proof.Proof.Gen.Kernel.Points
import proofs.«171997_j69810398429358_1_alg».proof.Proof.Gen.Kernel.Frame
import proofs.«171997_j69810398429358_1_alg».proof.Proof.Gen.KernelIdeal
import proofs.«171997_j69810398429358_1_alg».proof.Proof.Gen.KernelIdeal.Skeleton
import proofs.«171997_j69810398429358_1_alg».proof.Proof.Gen.KernelIdeal.Launch
import proofs.«171997_j69810398429358_1_alg».proof.Proof.Gen.KernelIdeal.Points
import proofs.«171997_j69810398429358_1_alg».proof.Proof.Gen.KernelIdeal.Frame
import proofs.«171997_j69810398429358_1_alg».proof.Proof.Gen.ReferenceIdeal
import proofs.«171997_j69810398429358_1_alg».proof.Proof.Gen.ReferenceIdeal.Run
import proofs.«171997_j69810398429358_1_alg».proof.Proof.Gen.ReferenceIdeal.Read
import proofs.«171997_j69810398429358_1_alg».proof.Proof.Gen.Pre_finite_inputs
import proofs.«171997_j69810398429358_1_alg».proof.Proof.KRun
import proofs.«171997_j69810398429358_1_alg».proof.Proof.KValue
import proofs.«171997_j69810398429358_1_alg».proof.Proof.RefValue
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Run from memories that agree on the arguments, the kernel program ends with its result array at the joint
    function of its arguments, and the reference with its result at the same function of its own, equal, arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Joint.joint (m ((c.tc : Thread _ _).loc Cert.KernelIdeal.main_arg0))
      (m ((c.tc : Thread _ _).loc Cert.KernelIdeal.main_arg1)) (m ((c.tc : Thread _ _).loc Cert.KernelIdeal.main_arg2)), ?_, ?_⟩
  · exact (θ_run Cert.KernelIdeal.defs _ _).mono
      (fun _ h c => ⟨(h c).1.trans (Cert.KernelIdeal.JointValue.result_eq m ρ c), (h c).2⟩)
      (Cert.KernelIdeal.JointRun.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v8_eq, Cert.ReferenceIdeal.JointValue.ref_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
